-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x8192x768 .f32) (main_arg1 : FVec F S8192x768 .f32) (main_arg2 : FVec F S768 .f32) (main_arg3 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x8192x768 : Shape := ⟨3, ![4, 8192, 768]⟩
abbrev S8192x768 : Shape := ⟨2, ![8192, 768]⟩
abbrev S768 : Shape := ⟨1, ![768]⟩
abbrev S32768x768 : Shape := ⟨2, ![32768, 768]⟩
abbrev S1x768 : Shape := ⟨2, ![1, 768]⟩
abbrev S512x768 : Shape := ⟨2, ![512, 768]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S32768x768, .f32⟩
  | .hbm, ⟨5, _⟩ => ⟨S1x768, .f32⟩
  | .hbm, ⟨6, _⟩ => ⟨S1x768, .f32⟩
  | .hbm, ⟨7, _⟩ => ⟨S32768x768, .f32⟩
  | .hbm, ⟨8, _⟩ => ⟨S4x8192x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S1x768, .f32⟩
  | .local _ .vmem, ⟨5, _⟩ => ⟨S1x768, .f32⟩
  | .local _ .vmem, ⟨6, _⟩ => ⟨S512x768, .f32⟩
  | .local _ .vmem, ⟨7, _⟩ => ⟨S512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x8192x768_S32768x768 : S4x8192x768.ShapeCasts S32768x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  reduces_S512x768_S512 : S512x768.Reduces [1] S512
  shapeCasts_S512_S512x1 : S512.ShapeCasts S512x1
  broadcasts_S512x1_S512x768 : S512x1.Broadcasts S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S32768x768_S4x8192x768 : S32768x768.ShapeCasts S4x8192x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .f32 = 32 ∨ (Rect.block (s := S32768x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .f32 = 32 ∨ (Rect.block (s := S8192x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S32768x768.size a
  hwx0_4 : ∀ i : grid0.Coords, EltTy.bits .f32 = 32 ∨ (Rect.block (s := S32768x768) S512x768.size (cc0_transform_4 i) (hinb0_4 i)).WholeWords (EltTy.packing .f32)

variable [Facts₀]

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S768 : Shape := ⟨1, ![768]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x768 : Shape := ⟨3, ![1, 8192, 768]⟩
abbrev S4x8192 : Shape := ⟨2, ![4, 8192]⟩
abbrev S4x8192x1 : Shape := ⟨3, ![4, 8192, 1]⟩
abbrev S1x1x768 : Shape := ⟨3, ![1, 1, 768]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x768, .f32⟩
  | .hbm, ⟨24, _⟩ => ⟨S8192x768, .i1⟩
  | .hbm, ⟨25, _⟩ => ⟨S_, .f32⟩
  | .hbm, ⟨26, _⟩ => ⟨S8192x768, .f32⟩
  | .hbm, ⟨27, _⟩ => ⟨S8192x768, .f32⟩
  | .hbm, ⟨28, _⟩ => ⟨S1x8192x768, .f32⟩
  | .hbm, ⟨29, _⟩ => ⟨S4x8192x768, .f32⟩
  | .hbm, ⟨30, _⟩ => ⟨S4x8192x768, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x768, .f32⟩
  | .hbm, ⟨38, _⟩ => ⟨S4x8192x768, .f32⟩
  | .hbm, ⟨39, _⟩ => ⟨S4x8192x768, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x768, .f32⟩
  | .hbm, ⟨47, _⟩ => ⟨S4x8192x768, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x768, .f32⟩
  | .hbm, ⟨53, _⟩ => ⟨S4x8192x768, .f32⟩
  | .hbm, ⟨54, _⟩ => ⟨S1x1x768, .f32⟩
  | .hbm, ⟨55, _⟩ => ⟨S4x8192x768, .f32⟩
  | .hbm, ⟨56, _⟩ => ⟨S4x8192x768, .f32⟩
  | .hbm, ⟨57, _⟩ => ⟨S1x1x768, .f32⟩
  | .hbm, ⟨58, _⟩ => ⟨S4x8192x768, .f32⟩
  | .hbm, ⟨59, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x768_0 : S8192.BroadcastsInDim S8192x768 (![0] : Fin 1 → Fin S8192x768.rank)
  bcast_S_S8192x768 : S_.BroadcastsInDim S8192x768 (![] : Fin 0 → Fin S8192x768.rank)
  bcast_S8192x768_S1x8192x768_1_2 : S8192x768.BroadcastsInDim S1x8192x768 (![1, 2] : Fin 2 → Fin S1x8192x768.rank)
  bcast_S1x8192x768_S4x8192x768_0_1_2 : S1x8192x768.BroadcastsInDim S4x8192x768 (![0, 1, 2] : Fin 3 → Fin S4x8192x768.rank)
  reducesTo_S4x8192x768_S4x8192_d2 : S4x8192x768.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x768_0_1_2 : S4x8192x1.BroadcastsInDim S4x8192x768 (![0, 1, 2] : Fin 3 → Fin S4x8192x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  gather_S8192x768_S8192x1_S8192x768_1_0_n_n_0_1_1768_wf : GatherDims.WF S8192x768 S8192x1 S8192x768 [1] [0] [] [0] [] 1 ![1, 768]

variable [Facts₀]

def gather_S8192x768_S8192x1_S8192x768_1_0_n_n_0_1_1768 : GatherDims S8192x768 S8192x1 S8192x768 where
  offsetDims := [1]
  collapsedSliceDims := [0]
  operandBatchingDims := []
  startIndicesBatchingDims := []
  startIndexMap := [0]
  indexVectorDim := 1
  sliceSizes := ![1, 768]
  wf := gather_S8192x768_S8192x1_S8192x768_1_0_n_n_0_1_1768_wf

class Facts : Prop extends Facts₀ where

variable [Facts]
-- ==== Proof.RefRun.lean ====
/-
  The reference program's run, read back.

  @main takes row s of the position table through jnp.take at the positions 0 … 8191 (a wrap of negative words, a
  validity mask, a row gather, a select against a fill value), adds the table to every batch of x, and normalises each
  row of 768 entries: mean, squared deviations, variance, a quotient by sqrt (variance + ε), scale by gamma, shift by
  beta. Here its operations are listed in order, the two outlined functions' at their call sites over the call's own
  buffers; the program IS that list run in sequence, so every weakly fair execution ends with each buffer at the
  operations' composed value of the arguments. The result buffer's composed value is the pure function `refOut`.
-/
import proofs.«126532_g18691697672695_cont_sun_m_1329_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The words the gather reads: position p's own word, moved up by the table's height where it is negative. -/
def takeWords : IVec S8192x1 32 :=
  have pos : IVec S8192 32 := iotaInDim S8192 32 0
  have zero : IVec S8192 32 := broadcastInDim S8192 ![] bcast_S_S8192 (constantI S_ 32 0#32)
  have height : IVec S8192 32 := broadcastInDim S8192 ![] bcast_S_S8192 (constantI S_ 32 8192#32)
  broadcastInDim S8192x1 ![0] bcast_S8192_S8192x1_0 (select (cmpi .slt pos zero) (addi pos height) pos)

/-- Which positions name a row of the table: 0 ≤ word ≤ 8191. -/
def takeValid : IVec S8192 1 :=
  have zero : IVec S8192x1 32 := broadcastInDim S8192x1 ![] bcast_S_S8192x1 (constantI S_ 32 0#32)
  have last : IVec S8192x1 32 :=
    broadcastInDim S8192x1 ![0, 1] bcast_S1x1_S8192x1_0_1 (broadcastInDim S1x1 ![1] bcast_S1_S1x1_1 (constantI S1 32 8191#32))
  Host.reduce IntOp.andi (andi (cmpi .sge takeWords zero) (cmpi .sle takeWords last)) (constantI S_ 1 1#1)
    reducesTo_S8192x1_S8192_d1 h_S_

/-- jnp.take of the table at the positions: the gathered rows where the position is valid, the fill value elsewhere. -/
def takeOut (table : Vec F S8192x768 .f32) : Vec F S8192x768 .f32 :=
  select (broadcastInDim S8192x768 ![0] bcast_S8192_S8192x768_0 takeValid)
    (Host.gather gather_S8192x768_S8192x1_S8192x768_1_0_n_n_0_1_1768 table takeWords)
    (broadcastInDim S8192x768 ![] bcast_S_S8192x768 (constant S_ .f32 0x7FC00000#32))

/-- The layer normalisation of `e` along its last axis as @main spells it. -/
def normOut (e : Vec F S4x8192x768 .f32) (gamma beta : Vec F S768 .f32) : Vec F S4x8192x768 .f32 :=
  have count : Vec F S4x8192x1 .f32 := broadcastInDim S4x8192x1 ![] bcast_S_S4x8192x1 (constant S_ .f32 0x44400000#32)
  have mean : Vec F S4x8192x1 .f32 :=
    Host.divf (broadcastInDim S4x8192x1 ![0, 1] bcast_S4x8192_S4x8192x1_0_1
      (Host.reduceAdd e (constant S_ .f32 0x00000000#32) reducesTo_S4x8192x768_S4x8192_d2 h_S_)) count
  have dev : Vec F S4x8192x768 .f32 := subf e (broadcastInDim S4x8192x768 ![0, 1, 2] bcast_S4x8192x1_S4x8192x768_0_1_2 mean)
  have variance : Vec F S4x8192x1 .f32 :=
    Host.divf (broadcastInDim S4x8192x1 ![0, 1] bcast_S4x8192_S4x8192x1_0_1
      (Host.reduceAdd (mulf dev dev) (constant S_ .f32 0x00000000#32) reducesTo_S4x8192x768_S4x8192_d2 h_S_)) count
  have root : Vec F S4x8192x1 .f32 :=
    Host.sqrt (addf variance (broadcastInDim S4x8192x1 ![] bcast_S_S4x8192x1 (constant S_ .f32 0x2B8CBCCC#32)))
  have normed : Vec F S4x8192x768 .f32 :=
    Host.divf dev (broadcastInDim S4x8192x768 ![0, 1, 2] bcast_S4x8192x1_S4x8192x768_0_1_2 root)
  addf
    (mulf (broadcastInDim S4x8192x768 ![0, 1, 2] bcast_S1x1x768_S4x8192x768_0_1_2
      (broadcastInDim S1x1x768 ![2] bcast_S768_S1x1x768_2 gamma)) normed)
    (broadcastInDim S4x8192x768 ![0, 1, 2] bcast_S1x1x768_S4x8192x768_0_1_2
      (broadcastInDim S1x1x768 ![2] bcast_S768_S1x1x768_2 beta))

/-- @main's result as one function of its four arguments. -/
def refOut (x : Vec F S4x8192x768 .f32) (table : Vec F S8192x768 .f32) (gamma beta : Vec F S768 .f32) :
    Vec F S4x8192x768 .f32 :=
  normOut (addf (broadcastInDim S4x8192x768 ![0, 1, 2] bcast_S1x8192x768_S4x8192x768_0_1_2
    (broadcastInDim S1x8192x768 ![1, 2] bcast_S8192x768_S1x8192x768_1_2 (takeOut table))) x) gamma beta

/-- @main's fifty-seven operations in order: the iota; @_take's twenty-four into `main_call0`'s buffers, @_where's
    select among them into `main_call0_call0`'s; then @main's own thirty-two. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x768_S8192x1_S8192x768_1_0_n_n_0_1_1768 x i),
    TRef.unary main_call0.v12 main_call0.v14 (broadcastInDim S8192x768 ![0] bcast_S8192_S8192x768_0),
    TRef.nullary main_call0.cst (constant S_ .f32 0x7FC00000#32),
    TRef.unary main_call0.cst main_call0.v15 (broadcastInDim S8192x768 ![] bcast_S_S8192x768),
    TRef.ternary main_call0.v14 main_call0.v13 main_call0.v15 main_call0.v16 select,
    unary main_v1 main_v2 (broadcastInDim S1x8192x768 ![1, 2] bcast_S8192x768_S1x8192x768_1_2 : (⟨S8192x768, .f32⟩ : BufTy).Contents (Elt F) → (⟨S1x8192x768, .f32⟩ : BufTy).Contents (Elt F)),
    unary main_v2 main_v3 (broadcastInDim S4x8192x768 ![0, 1, 2] bcast_S1x8192x768_S4x8192x768_0_1_2 : (⟨S1x8192x768, .f32⟩ : BufTy).Contents (Elt F) → (⟨S4x8192x768, .f32⟩ : BufTy).Contents (Elt F)),
    binary main_v3 main_arg0 main_v4 (addf : (⟨S4x8192x768, .f32⟩ : BufTy).Contents (Elt F) → (⟨S4x8192x768, .f32⟩ : BufTy).Contents (Elt F) → (⟨S4x8192x768, .f32⟩ : BufTy).Contents (Elt F)),
    nullary main_cst (constant S_ .f32 0x00000000#32),
    binary main_v4 main_cst main_v5 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44400000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v9 main_v10 (subf : (⟨S4x8192x768, .f32⟩ : BufTy).Contents (Elt F) → (⟨S4x8192x768, .f32⟩ : BufTy).Contents (Elt F) → (⟨S4x8192x768, .f32⟩ : BufTy).Contents (Elt F)),
    binary main_v10 main_v10 main_v11 (mulf : (⟨S4x8192x768, .f32⟩ : BufTy).Contents (Elt F) → (⟨S4x8192x768, .f32⟩ : BufTy).Contents (Elt F) → (⟨S4x8192x768, .f32⟩ : BufTy).Contents (Elt F)),
    nullary main_cst_1 (constant S_ .f32 0x00000000#32),
    binary main_v11 main_cst_1 main_v12 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44400000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v16 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v16 main_v17 (subf : (⟨S4x8192x768, .f32⟩ : BufTy).Contents (Elt F) → (⟨S4x8192x768, .f32⟩ : BufTy).Contents (Elt F) → (⟨S4x8192x768, .f32⟩ : BufTy).Contents (Elt F)),
    nullary main_cst_3 (constant S_ .f32 0x2B8CBCCC#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v17 main_v21 main_v22 (Host.divf : (⟨S4x8192x768, .f32⟩ : BufTy).Contents (Elt F) → (⟨S4x8192x768, .f32⟩ : BufTy).Contents (Elt F) → (⟨S4x8192x768, .f32⟩ : BufTy).Contents (Elt F)),
    unary main_arg2 main_v23 (broadcastInDim S1x1x768 ![2] bcast_S768_S1x1x768_2 : (⟨S768, .f32⟩ : BufTy).Contents (Elt F) → (⟨S1x1x768, .f32⟩ : BufTy).Contents (Elt F)),
    unary main_v23 main_v24 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v24 main_v22 main_v25 (mulf : (⟨S4x8192x768, .f32⟩ : BufTy).Contents (Elt F) → (⟨S4x8192x768, .f32⟩ : BufTy).Contents (Elt F) → (⟨S4x8192x768, .f32⟩ : BufTy).Contents (Elt F)),
    unary main_arg3 main_v26 (broadcastInDim S1x1x768 ![2] bcast_S768_S1x1x768_2 : (⟨S768, .f32⟩ : BufTy).Contents (Elt F) → (⟨S1x1x768, .f32⟩ : BufTy).Contents (Elt F)),
    unary main_v26 main_v27 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v25 main_v27 main_v28 (addf : (⟨S4x8192x768, .f32⟩ : BufTy).Contents (Elt F) → (⟨S4x8192x768, .f32⟩ : BufTy).Contents (Elt F) → (⟨S4x8192x768, .f32⟩ : BufTy).Contents (Elt F)) ]

-- fifty-seven binds re-associated: the rewrite under the chain recurses once per statement
set_option maxRecDepth 2048 in
/-- @main is that straight line: the two functions' bodies unfolded at their calls and the call records at their
    fields, both sides are one chain of operations once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

attribute [local irreducible] Host.reduce Host.gather Host.reduceAdd in
set_option maxRecDepth 8192 in
set_option maxHeartbeats 1000000 in
/-- The operations' fold read at the result buffer is `refOut` of the arguments: the fold unrolled, each operation's
    result deciding whether the buffer read is the one it writes; the reductions and the gather stay folded. -/
theorem out_eq (V : Valuation τ sig (Elt F)) :
    after ops V (main_v28 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, for any float values, from any memory with zero counters: every weakly fair execution of @main
    terminates with the result at `refOut` of the arguments as launched and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RowNorm.lean ====
/-
  Layer normalisation of one row, over the extended reals.

  A row e has mean  μ = (∑ e) / c  and variance  σ² = (∑ (e − μ)²) / c.  The normalised row, scaled by g and shifted
  by b, is spelt in two ways:  g · ((e k − μ) · rsqrt (σ² + ε)) + b   and   g · ((e k − μ) / sqrt (σ² + ε)) + b.
  When every entry of the row is a real number and c and ε are positive reals, σ² is a nonnegative real, so
  r = σ² + ε is a positive real, sqrt r is a nonzero real, dividing by it is multiplying by its inverse, and that
  inverse is rsqrt r: the two spellings are the same extended real.
-/
import Idealize.ShloMosaic.PureOps.Ideal
import Idealize.ShloMosaic.PureOps.Ideal.Laws

noncomputable section

namespace Cert.RowNorm

open Idealize.ShloMosaic

variable {ι : Type} [Fintype ι]

/-- The mean of a row: its sum over the count c. -/
def mean (c : EReal) (e : ι → EReal) : EReal := Ideal.div (∑ k, e k) c

/-- The variance of a row: the sum of the squared deviations from the mean, over the count c. -/
def var (c : EReal) (e : ι → EReal) : EReal := Ideal.div (∑ k, (e k - mean c e) * (e k - mean c e)) c

/-- The normalised row through the reciprocal square root. -/
def viaRsqrt (c ε : EReal) (e : ι → EReal) (g b : EReal) (k : ι) : EReal :=
  g * ((e k - mean c e) * Ideal.rsqrt (var c e + ε)) + b

/-- The normalised row through a quotient by the square root. -/
def viaSqrt (c ε : EReal) (e : ι → EReal) (g b : EReal) (k : ι) : EReal :=
  g * Ideal.div (e k - mean c e) (Ideal.sqrt (var c e + ε)) + b

/-- A finite sum of reals, taken in the extended reals, is the real sum. -/
theorem sum_coe (f : ι → ℝ) : ∑ k, ((f k : ℝ) : EReal) = ((∑ k, f k : ℝ) : EReal) := by
  classical
  refine Finset.induction_on (Finset.univ : Finset ι) (by simp) ?_
  intro a s ha ih
  rw [Finset.sum_insert ha, Finset.sum_insert ha, ih, EReal.coe_add]

/-- A real over a nonzero real is the real quotient. -/
theorem div_coe_coe (a c : ℝ) (hc : c ≠ 0) : Ideal.div (a : EReal) (c : EReal) = ((a / c : ℝ) : EReal) := by
  rw [Ideal.div_coe hc, ← EReal.coe_mul, mul_one_div]

/-- On a row of reals, with a positive real count and a positive real ε, the two spellings agree. -/
theorem law {c ε : EReal} {cr εr : ℝ} (hc : c = (cr : EReal)) (hcr : 0 < cr) (hε : ε = (εr : EReal)) (hεr : 0 < εr)
    (e : ι → EReal) (he : ∀ k, ∃ r : ℝ, e k = (r : EReal)) (g b : EReal) (k : ι) :
    viaRsqrt c ε e g b k = viaSqrt c ε e g b k := by
  choose f hf using he
  obtain rfl : e = fun k => ((f k : ℝ) : EReal) := funext hf
  subst hc hε
  have hmean : mean (cr : EReal) (fun k => ((f k : ℝ) : EReal)) = (((∑ k, f k) / cr : ℝ) : EReal) := by
    unfold mean; rw [sum_coe, div_coe_coe _ _ hcr.ne']
  -- the variance is a nonnegative real
  obtain ⟨v, hv0, hv⟩ : ∃ v : ℝ, 0 ≤ v ∧ var (cr : EReal) (fun k => ((f k : ℝ) : EReal)) = (v : EReal) := by
    refine ⟨(∑ k, (f k - (∑ k, f k) / cr) * (f k - (∑ k, f k) / cr)) / cr, ?_, ?_⟩
    · exact div_nonneg (Finset.sum_nonneg fun k _ => mul_self_nonneg _) hcr.le
    · unfold var; rw [hmean]
      simp only [← EReal.coe_sub, ← EReal.coe_mul]
      rw [sum_coe, div_coe_coe _ _ hcr.ne']
  unfold viaRsqrt viaSqrt
  rw [hv, ← EReal.coe_add]
  have hr : 0 < v + εr := by linarith
  have hs : Real.sqrt (v + εr) ≠ 0 := (Real.sqrt_pos.mpr hr).ne'
  rw [Ideal.rsqrt_coe, Ideal.sqrt_coe, if_neg (not_lt.mpr hr.le), if_neg hr.ne', if_neg (not_lt.mpr hr.le),
    Ideal.div_coe hs, one_div]

/-- The f32 pattern 0x44400000 denotes 768. -/
theorem c768 : Ideal.ofBits .f32 0x44400000#32 = ((768 : ℝ) : EReal) := by
  simp [Ideal.ofBits, Ideal.ieee, -EReal.coe_mul]; norm_num

/-- The f32 pattern 0x2B8CBCCC (the nearest f32 to 1e-12) denotes a positive real. -/
theorem eps_pos : ∃ εr : ℝ, 0 < εr ∧ Ideal.ofBits .f32 0x2B8CBCCC#32 = (εr : EReal) := by
  refine ⟨(9223372 : ℝ) * (2 : ℝ) ^ (-63 : ℤ), by positivity, ?_⟩
  simp [Ideal.ofBits, Ideal.ieee, -EReal.coe_mul]

end Cert.RowNorm

end
-- ==== Proof.KernelRow.lean ====
/-
  The kernel body's one stored value, read at an entry.

  The body adds the x block and the position block, takes each row's mean and variance by lane sums over the 768
  columns (each kept as a one-column array and broadcast back over the row), multiplies the deviations by
  rsqrt (variance + ε), scales by gamma's row and shifts by beta's row. At row p, column q this is the row
  normalisation `RowNorm.viaRsqrt` of the row  k ↦ x[p, k] + pos[p, k]  with gamma[0, q] and beta[0, q].
-/
import proofs.«126532_g18691697672695_cont_sun_m_1329_2_alg».proof.Proof.Gen.KernelIdeal.Skeleton
import proofs.«126532_g18691697672695_cont_sun_m_1329_2_alg».proof.Proof.RowNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.RowNorm

/-- A lane sum of a [512, 768] array, at row p: the sum of the row's 768 entries. -/
theorem rowSum (v : FVec Ideal S512x768 .f32) (axes : List (Fin S512x768.rank)) (h : S512x768.Reduces axes S512)
    (hφ : FKind.Formats .f32) (hacc : (0x00000000#32 : BitVec 32) = 0x00000000#32) (p : Fin 512) (haxes : axes = [1]) :
    multiReduction .add axes S512 v 0x00000000#32 h hφ hacc (ix1 p) = ∑ k : Fin 768, v (ix2 p k) := by
  subst haxes
  refine (Ideal.multiReduction_add_single v _ h hφ hacc (ix1 p)).trans ?_
  refine Finset.sum_congr rfl fun k _ => congrArg v ?_
  funext a
  apply Fin.ext
  match a with
  | ⟨0, _⟩ => rfl
  | ⟨1, _⟩ => rfl

/-- A [512] array kept as a [512, 1] column reads, at (p, 0), its entry p. -/
theorem column_apply {α : Type} (v : S512.Idx → α) (p : Fin 512) :
    shapeCast S512x1 v shapeCasts_S512_S512x1 (ix2 p 0) = v (ix1 p) := by
  refine shapeCast_apply v _ (ix2 p 0) (ix1 p) ?_
  rw [Shape.rowMajor_val_one, Shape.rowMajor_val_two]
  show p.val = p.val * 1 + 0
  omega

/-- A [512, 1] column broadcast over 768 columns reads, at (p, q), the column's entry p. -/
theorem overRow_apply {α : Type} (v : S512x1.Idx → α) (p : Fin 512) (q : Fin 768) :
    broadcastTo S512x768 v broadcasts_S512x1_S512x768 (ix2 p q) = v (ix2 p 0) := by
  refine broadcastTo_apply v _ (ix2 p q) (ix2 p 0) fun a => ?_
  match a with
  | ⟨0, _⟩ => rfl
  | ⟨1, _⟩ => rfl

/-- A [1, 768] row broadcast over 512 rows reads, at (p, q), the row's entry q. -/
theorem overCol_apply {α : Type} (v : S1x768.Idx → α) (p : Fin 512) (q : Fin 768) :
    broadcastTo S512x768 v broadcasts_S1x768_S512x768 (ix2 p q) = v (ix2 (0 : Fin 1) q) :=
  broadcastTo_1b_ab_apply v _ p q

/-- The reciprocal square root of an array, at an entry. -/
theorem rsqrt_apply {s : Shape} (v : FVec Ideal s .f32) (i : s.Idx) : rsqrt v i = Ideal.rsqrt (v i) := rfl

/-- The body's stored value at row p, column q is the row normalisation of the summed row. -/
theorem pay_apply (x0 x1 : Vec Ideal S512x768 .f32) (x2 x3 : Vec Ideal S1x768 .f32) (p : Fin 512) (q : Fin 768) :
    k0_pay1 (F := Ideal) x0 x1 x2 x3 (ix2 p q)
      = viaRsqrt (Ideal.ofBits .f32 0x44400000#32) (Ideal.ofBits .f32 0x2B8CBCCC#32)
          (fun k : Fin 768 => x0 (ix2 p k) + x1 (ix2 p k)) (x2 (ix2 (0 : Fin 1) q)) (x3 (ix2 (0 : Fin 1) q)) q := by
  unfold k0_pay1
  simp (disch := exact rfl) only [addf_apply, mulf_apply, subf_apply, divf_apply, rsqrt_apply, broadcast_apply, overRow_apply,
    overCol_apply, column_apply, rowSum, shapeCast_self]
  rfl

end Cert.KernelIdeal.Row

end
-- ==== Proof.KernelValue.lean ====
/-
  What the kernel's region leaves in its output array, and @main's result.

  The region runs the body at 64 grid points; point t stages 512 rows of x (re-laid to [32768, 768]) and the 512 rows of
  the position table at the same rows modulo 8192, with gamma's and beta's one row, and writes 512 rows of the output
  back. The body's stored value at an entry is the row normalisation of the summed row, so each written block is a
  block of ONE whole-array function `arrOut` of the arrays the region reads; the 64 blocks cover the output array, so
  the array ends at `arrOut`. The line after the region re-lays it to [4, 8192, 768]: at (b, s, h) the result is the row
  normalisation of  k ↦ x[b, s, k] + pos[s, k]  with gamma[h] and beta[h] (row b·8192 + s of the re-laid x, and
  (b·8192 + s) mod 8192 = s).
-/
import proofs.«126532_g18691697672695_cont_sun_m_1329_2_alg».proof.Proof.Gen.KernelIdeal.Frame
import proofs.«126532_g18691697672695_cont_sun_m_1329_2_alg».proof.Proof.KernelRow
import Idealize.ShloMosaic.Lib.Pipeline.Value
import Idealize.ShloMosaic.Lib.ValueIdx
import Idealize.ShloMosaic.Lib.StableHlo.Run

set_option maxRecDepth 16384

noncomputable section

namespace Cert.KernelIdeal.Out

open Cert.KernelIdeal Cert.KernelIdeal.Gen Cert.KernelIdeal.Row Idealize.ShloMosaic Idealize.ShloMosaic.TcCoe
open Idealize.ShloMosaic.ValueIdx Idealize.SL.Sem Cert.RowNorm
open Idealize.ShloMosaic.Pipeline (Dat Cfg Window)

variable (m : (ℓ : Loc nD τ sig) → Buf (Elt Ideal) ℓ) (ρ : Dev nD → PrngReg)

/-- The four arrays the region reads, as the region finds them, at their literal types. -/
abbrev X0 (c : Dev nD) : Vec Ideal S32768x768 .f32 := V m c main_v0
abbrev P0 (c : Dev nD) : Vec Ideal S8192x768 .f32 := V m c main_arg1
abbrev G0 (c : Dev nD) : Vec Ideal S1x768 .f32 := V m c main_v1
abbrev B0 (c : Dev nD) : Vec Ideal S1x768 .f32 := V m c main_v2

theorem hz : (![0, 0] : Fin 2 → Nat) = fun _ => 0 := funext fun a => by fin_cases a <;> rfl

/-- Row r, column q of the region's output: the row normalisation of  k ↦ X[r, k] + P[r mod 8192, k]. -/
def rowOut (X : Vec Ideal S32768x768 .f32) (P : Vec Ideal S8192x768 .f32) (G B : Vec Ideal S1x768 .f32) (r : Fin 32768)
    (q : Fin 768) : EReal :=
  viaRsqrt (Ideal.ofBits .f32 0x44400000#32) (Ideal.ofBits .f32 0x2B8CBCCC#32)
    (fun k : Fin 768 => X (ix2 r k) + P (ix2 (⟨r.val % 8192, Nat.mod_lt _ (by decide)⟩ : Fin 8192) k))
    (G (ix2 (0 : Fin 1) q)) (B (ix2 (0 : Fin 1) q)) q

/-- The region's output array as one function of the arrays it reads. -/
def arrOut (X : Vec Ideal S32768x768 .f32) (P : Vec Ideal S8192x768 .f32) (G B : Vec Ideal S1x768 .f32) :
    Vec Ideal S32768x768 .f32 := fun i => rowOut X P G B (i 0) (i 1)

theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) % 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 63 ∧ win0_4.index t (1 : Fin 2) = 0 :=
  (by decide +kernel : ∀ t : Fin grid0.N, _)

theorem idx_onto : ∀ q0 : Fin 64, ∃ t : Fin cfg0.N, win0_4.index t = ![q0.val, 0] :=
  (by decide +kernel : ∀ q0 : Fin 64, ∃ t : Fin grid0.N, win0_4.index t = ![q0.val, 0])

/-- The row normalisation of a row is `rowOut` once the row, the scale and the shift are the arrays' entries. -/
theorem rowOut_of (X : Vec Ideal S32768x768 .f32) (P : Vec Ideal S8192x768 .f32) (G B : Vec Ideal S1x768 .f32)
    (r : Fin 32768) (q q' : Fin 768) (hq : q' = q) (e : Fin 768 → EReal) (g b : EReal)
    (he : ∀ k, e k = X (ix2 r k) + P (ix2 (⟨r.val % 8192, Nat.mod_lt _ (by decide)⟩ : Fin 8192) k))
    (hg : g = G (ix2 (0 : Fin 1) q)) (hb : b = B (ix2 (0 : Fin 1) q)) :
    viaRsqrt (Ideal.ofBits .f32 0x44400000#32) (Ideal.ofBits .f32 0x2B8CBCCC#32) e g b q = rowOut X P G B r q' := by
  subst hq hg hb
  obtain rfl : e = _ := funext he
  rfl

/-- WHAT POINT t WRITES BACK is block t of `arrOut` of the arrays as the region finds them: the x block and the
    output block sit at the same rows, the position block at those rows modulo 8192 (the grid runs the batch innermost,
    sixteen blocks of positions per batch), gamma's and beta's one row at row 0. -/
theorem flushed_eq (c : Dev nD) (t : Fin cfg0.N) :
    (dats m 0 c).flushed 4 t = ((cfg0.win 4).blk t).view.read (Elt Ideal)
      (arrOut (X0 m c) (P0 m c) (G0 m c) (B0 m c)) := by
  show (cfg0.win 4).cut (grid0.coords t) ((dats m 0 c).after 4 t) = _
  rw [after0_4]
  unfold out0_4
  rw [View.canon_unit_zero hz]
  simp only [View.ld_unit_zero (S := S512x768) hz, View.ld_unit_zero (S := S1x768) hz]
  funext j
  obtain ⟨p, q, rfl⟩ : ∃ (p : Fin 512) (q : Fin 768), j = ix2 p q := ⟨j 0, j 1, eq_ix2 j⟩
  refine (pay_apply (iblk m c 0 t) (iblk m c 1 t) (iblk m c 2 t) (iblk m c 3 t) p q).trans ?_
  obtain ⟨e0, e1, e2, e3, e4, e5, e6, e7, e8, e9⟩ := idx_facts t
  have hp := p.isLt
  have hq := q.isLt
  show _ = rowOut (X0 m c) (P0 m c) (G0 m c) (B0 m c)
      ((((cfg0.win 4).blk t).view.emb (ix2 p q)) 0) ((((cfg0.win 4).blk t).view.emb (ix2 p q)) 1)
  refine rowOut_of _ _ _ _ _ q _ (Fin.ext ?_) _ _ _ (fun k => ?_) ?_ ?_
  · show win0_4.index t (1 : Fin 2) * 768 + 1 * q.val = q.val
    omega
  · have hk := k.isLt
    show X0 m c (((cfg0.win 0).blk t).view.emb (ix2 p k)) + P0 m c (((cfg0.win 1).blk t).view.emb (ix2 p k)) = _
    refine congrArg₂ (· + ·) (congrArg (X0 m c) ?_) (congrArg (P0 m c) ?_)
    · funext a
      apply Fin.ext
      match a with
      | ⟨0, _⟩ =>
        show win0_0.index t (0 : Fin 2) * 512 + 1 * p.val = win0_4.index t (0 : Fin 2) * 512 + 1 * p.val
        omega
      | ⟨1, _⟩ =>
        show win0_0.index t (1 : Fin 2) * 768 + 1 * k.val = k.val
        omega
    · funext a
      apply Fin.ext
      match a with
      | ⟨0, _⟩ =>
        show win0_1.index t (0 : Fin 2) * 512 + 1 * p.val = (win0_4.index t (0 : Fin 2) * 512 + 1 * p.val) % 8192
        omega
      | ⟨1, _⟩ =>
        show win0_1.index t (1 : Fin 2) * 768 + 1 * k.val = k.val
        omega
  · show G0 m c (((cfg0.win 2).blk t).view.emb (ix2 (0 : Fin 1) q)) = _
    refine congrArg (G0 m c) ?_
    funext a
    apply Fin.ext
    match a with
    | ⟨0, _⟩ =>
      show win0_2.index t (0 : Fin 2) * 1 + 1 * 0 = 0
      omega
    | ⟨1, _⟩ =>
      show win0_2.index t (1 : Fin 2) * 768 + 1 * q.val = q.val
      omega
  · show B0 m c (((cfg0.win 3).blk t).view.emb (ix2 (0 : Fin 1) q)) = _
    refine congrArg (B0 m c) ?_
    funext a
    apply Fin.ext
    match a with
    | ⟨0, _⟩ =>
      show win0_3.index t (0 : Fin 2) * 1 + 1 * 0 = 0
      omega
    | ⟨1, _⟩ =>
      show win0_3.index t (1 : Fin 2) * 768 + 1 * q.val = q.val
      omega

/-- An index of the output array is in point t's block iff each coordinate is in the block's range on its axis. -/
theorem mem_blk (t : Fin cfg0.N) (i : S32768x768.Idx) :
    i ∈ ((cfg0.win 4).blk t).view.set ↔ ∀ a : Fin 2, win0_4.index t a * S512x768.size a ≤ (i a).val
      ∧ (i a).val < win0_4.index t a * S512x768.size a + S512x768.size a := by
  show i ∈ ((View.whole main_v3).slice (win0_4.rect t)).set ↔ _
  rw [View.set_slice_whole, Rect.mem_set_unit]
  exact Iff.rfl

/-- The sixty-four blocks of 512 rows cover the output array: row r is in block r / 512. -/
theorem cover (i : S32768x768.Idx) :
    ∃ t : Fin cfg0.N, (cfg0.win 4).flush t = true ∧ i ∈ ((cfg0.win 4).blk t).view.set := by
  have hi0 : (i 0).val < 32768 := (i 0).isLt
  have hi1 : (i 1).val < 768 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 768 ≤ (i 1).val ∧ (i 1).val < win0_4.index t (1 : Fin 2) * 768 + 768
    omega

/-- THE OUTPUT ARRAY after the region: `arrOut` of the arrays the region finds. -/
theorem final (c : Dev nD) :
    (dats m 0 c).arrAt 4 cfg0.N = arrOut (X0 m c) (P0 m c) (G0 m c) (B0 m c) :=
  (dats m 0 c).arrAt_eq_of_cover 4 _ (fun t _ => flushed_eq m c t) cover

/-! ## The arrays the region finds, and @main's result -/

theorem X0_eq (c : Dev nD) :
    X0 m c = shapeCast S32768x768 (m ((c : Thread nD τ).loc main_arg0)) shapeCasts_S4x8192x768_S32768x768 := by
  show StableHlo.after hostOps0 (fun b => m (c, b)) (Proc.devRef .tc main_v0) = _
  after_results
  rfl
theorem G0_eq (c : Dev nD) :
    G0 m c = shapeCast S1x768 (m ((c : Thread nD τ).loc main_arg2)) shapeCasts_S768_S1x768 := by
  show StableHlo.after hostOps0 (fun b => m (c, b)) (Proc.devRef .tc main_v1) = _
  after_results
  rfl
theorem B0_eq (c : Dev nD) :
    B0 m c = shapeCast S1x768 (m ((c : Thread nD τ).loc main_arg3)) shapeCasts_S768_S1x768 := by
  show StableHlo.after hostOps0 (fun b => m (c, b)) (Proc.devRef .tc main_v2) = _
  after_results
  rfl

theorem P0_eq (c : Dev nD) : P0 m c = m ((c : Thread nD τ).loc main_arg1) := V_main_arg1 m c

/-- @main's result as one function of its four arguments: the arguments re-laid as the region reads them, the region's
    output array, re-laid to [4, 8192, 768]. -/
def kOut (x : Vec Ideal S4x8192x768 .f32) (pos : Vec Ideal S8192x768 .f32) (g b : Vec Ideal S768 .f32) :
    Vec Ideal S4x8192x768 .f32 :=
  shapeCast S4x8192x768
    (arrOut (shapeCast S32768x768 x shapeCasts_S4x8192x768_S32768x768) pos (shapeCast S1x768 g shapeCasts_S768_S1x768)
      (shapeCast S1x768 b shapeCasts_S768_S1x768)) shapeCasts_S32768x768_S4x8192x768

/-- The line after the region re-lays the region's output array. -/
theorem tail_eq (c : Dev nD) :
    Pipeline.afterTail₀ cfgs (dats m) 0 (V0 m) [hostOps1] c main_v4
      = kOut (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  have e : Pipeline.withArrays spec0 c (V0 m c) (fun w => (dats m 0 c).arrAt w cfg0.N) (Proc.devRef .tc (Pipeline.arrRef spec0 4))
      = arrOut (X0 m c) (P0 m c) (G0 m c) (B0 m c) :=
    (Pipeline.withArrays_arr spec0 launch0.win.arr_inj c _ _ 4).trans (final m c)
  refine (show _ = shapeCast S4x8192x768 (arrOut (X0 m c) (P0 m c) (G0 m c) (B0 m c)) shapeCasts_S32768x768_S4x8192x768
    from ?_).trans ?_
  · funext i
    exact congrFun (congrArg (fun z : Vec Ideal S32768x768 .f32 => shapeCast S4x8192x768 z shapeCasts_S32768x768_S4x8192x768) e) i
  · rw [X0_eq, P0_eq, G0_eq, B0_eq]
    rfl

/-- On every device, from any memory with zero counters: every weakly fair execution of @main terminates with the result
    at `kOut` of the arguments as launched and the arguments unchanged. -/
theorem run : θ_run defs (onTc (τ := τ) (main (F := Ideal))) ⟨m, fun _ => 0, ρ⟩ fun r => ∀ c : Dev nD,
      r.2.mem ((c.tc : Thread nD τ).loc main_v4)
          = kOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- @main's result at (b, s, h): the row normalisation of  k ↦ x[b, s, k] + pos[s, k]  with gamma[h] and beta[h]. -/
theorem kOut_apply (x : Vec Ideal S4x8192x768 .f32) (pos : Vec Ideal S8192x768 .f32) (g b : Vec Ideal S768 .f32)
    (bb : Fin 4) (s : Fin 8192) (h : Fin 768) :
    kOut x pos g b (ix3 bb s h)
      = viaRsqrt (Ideal.ofBits .f32 0x44400000#32) (Ideal.ofBits .f32 0x2B8CBCCC#32)
          (fun k : Fin 768 => x (ix3 bb s k) + pos (ix2 s k)) (g (ix1 h)) (b (ix1 h)) h := by
  have hbb := bb.isLt
  have hs := s.isLt
  unfold kOut
  refine (shapeCast_apply _ _ (ix3 bb s h) (ix2 (⟨bb.val * 8192 + s.val, by omega⟩ : Fin 32768) h) ?_).trans ?_
  · rw [Shape.rowMajor_val_two, Shape.rowMajor_val_three]
    rfl
  · show rowOut _ _ _ _ (⟨bb.val * 8192 + s.val, by omega⟩ : Fin 32768) h = _
    refine (rowOut_of _ _ _ _ _ h h rfl _ _ _ (fun k => ?_) ?_ ?_).symm
    · refine congrArg₂ (· + ·)
        (shapeCast_apply x _ (ix2 (⟨bb.val * 8192 + s.val, by omega⟩ : Fin 32768) k) (ix3 bb s k) ?_).symm (congrArg pos ?_)
      · rw [Shape.rowMajor_val_two, Shape.rowMajor_val_three]
        rfl
      · funext a
        apply Fin.ext
        match a with
        | ⟨0, _⟩ =>
          show s.val = (bb.val * 8192 + s.val) % 8192
          omega
        | ⟨1, _⟩ => rfl
    · refine (shapeCast_apply g _ (ix2 (0 : Fin 1) h) (ix1 h) ?_).symm
      rw [Shape.rowMajor_val_one, Shape.rowMajor_val_two]
      show h.val = 0 * 768 + h.val
      omega
    · refine (shapeCast_apply b _ (ix2 (0 : Fin 1) h) (ix1 h) ?_).symm
      rw [Shape.rowMajor_val_one, Shape.rowMajor_val_two]
      show h.val = 0 * 768 + h.val
      omega

end Cert.KernelIdeal.Out

end
-- ==== Proof.Finite.lean ====
/-
  What the precondition says of the inputs.

  The precondition is the conjunction of four tests, one per input: every entry's absolute value is below +∞.
  An extended real whose absolute value max(x, −x) is below +∞ is neither −∞ nor +∞, so it is a real number. Read
  back here for the two inputs the row law needs, x and the position table.
-/
import proofs.«126532_g18691697672695_cont_sun_m_1329_2_alg».proof.Pre_finite_inputs
import proofs.«126532_g18691697672695_cont_sun_m_1329_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- An extended real whose absolute value tests below the +∞ pattern is a real number. -/
theorem real_of_lt (x : EReal)
    (h : BitVec.ofBool (decide (max x (-x) < Ideal.ofBits .f32 0x7F800000#32)) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by rw [EReal.neg_bot, max_eq_right bot_le, decide_eq_false (lt_irrefl _)]; decide)
  | coe r => exact ⟨r, rfl⟩
  | top => exact absurd h (by rw [EReal.neg_top, max_eq_left bot_le, decide_eq_false (lt_irrefl _)]; decide)

instance : Subsingleton S_.Idx := ⟨fun a b => funext fun d => d.elim0⟩

/-- Under the precondition every entry of x and every entry of the position table is a real number. -/
theorem real_of_pre [Cert.Pre_finite_inputs.Facts] (x : FVec Ideal S4x8192x768 .f32) (pos : FVec Ideal S8192x768 .f32)
    (g b : FVec Ideal S768 .f32) (h : Cert.Pre_finite_inputs.fn (F := Ideal) x pos g b = fun _ => 1#1) :
    (∀ i, ∃ r : ℝ, x i = (r : EReal)) ∧ (∀ i, ∃ r : ℝ, pos i = (r : EReal)) := by
  have h0 := congrFun h ValueIdx.ix0
  dsimp only [Cert.Pre_finite_inputs.fn, Cert.Pre_finite_inputs.fn_part1] at h0
  obtain ⟨h012, -⟩ := IntOp.andi_eq_one.1 h0
  obtain ⟨h01, -⟩ := IntOp.andi_eq_one.1 h012
  obtain ⟨hx, hp⟩ := IntOp.andi_eq_one.1 h01
  exact ⟨fun i => real_of_lt _ (Host.reduce_andi_all _ _ _ _ _ hx i),
    fun i => real_of_lt _ (Host.reduce_andi_all _ _ _ _ _ hp i)⟩

end Cert.Finite

end
-- ==== Proof.LibIndexRead.lean ====
/-
  An accumulating scatter and a row gather, read at an index.

  For the dimension numbers jnp's `x.at[idx].add(u)`, `segment_sum` and `x[idx]` print along axis 0 — the index
  vector an [E, 1] column of words, one word per update or per gathered row —, the update e lands on row p exactly
  when word e, read signed, is p, and the gathered row e is the operand's row named by word e when that word
  is a row of the operand.
-/
import Idealize.ShloMosaic.PureOps.Ideal
import Idealize.ShloMosaic.Lib.ValueIdx

noncomputable section

namespace Cert.Sage.IndexRead

open Idealize.ShloMosaic Idealize.ShloMosaic.ValueIdx

/-- An update lands at `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

/-- The start of update `j` on the operand's one axis is word `j`, read signed. -/
private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The operand's one axis is inserted: no window coordinate. -/
private theorem vec_window (j : (⟨1, ![E]⟩ : Shape).Idx) : d.window j 0 = 0 := by
  obtain ⟨uw, iw, sd, iv, wf⟩ := d
  simp only at h1 h2 h3 h4
  subst h1 h2 h3 h4
  rfl

/-- Update `j` lands on entry `p` exactly when word `j`, read signed, is `p`. -/
private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

/-- Accumulating a vector of E updates into a vector of N entries: entry p is what it was plus the updates whose
    word is p. -/
theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1
  -- the update indices are the words' positions
  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

/-- The start of update `j` on the operand's row axis is word `j 0`, read signed. -/
private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The column axis is not a scattered one: its start is 0. -/
private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

/-- The row axis is inserted: no window coordinate. -/
private theorem rows_window0 (j : (⟨2, ![E, D]⟩ : Shape).Idx) : d.window j 0 = 0 := by
  obtain ⟨uw, iw, sd, iv, wf⟩ := d
  simp only at h1 h2 h3 h4
  subst h1 h2 h3 h4
  rfl

/-- The window coordinate on the column axis is the update's column. -/
private theorem rows_window1 (j : (⟨2, ![E, D]⟩ : Shape).Idx) : d.window j 1 = (j 1).val := by
  obtain ⟨uw, iw, sd, iv, wf⟩ := d
  simp only at h1 h2 h3 h4
  subst h1 h2 h3 h4
  rfl

/-- Update `j` lands on entry `(p, q)` exactly when word `j 0`, read signed, is `p` and its column is `q`. -/
private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

/-- Accumulating E rows of D entries into an N x D matrix: entry (p, q) is what it was plus entry q of the rows
    whose word is p. -/
theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1
  -- the update indices that land in column q are the rows' positions, at column q
  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

section Gather
variable {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
include h1 h2 h3 h4 h5 h6 h7

/-- The slice's start on the row axis is word `j 0`, read signed and clamped into `[0, N - 1]`. -/
private theorem gather_start0 (idx : (⟨2, ![E, 1]⟩ : Shape).Idx → BitVec 32) (j : (⟨2, ![E, D]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

/-- The column axis is not in the start index map: its start is 0. -/
private theorem gather_start1 (idx : (⟨2, ![E, 1]⟩ : Shape).Idx → BitVec 32) (j : (⟨2, ![E, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

/-- No batching axes: no batching coordinate. -/
private theorem gather_batch (j : (⟨2, ![E, D]⟩ : Shape).Idx) (a : Fin 2) : d.batchCoord j a = 0 :=
  d.batchCoord_eq_zero j a (by rw [h3]; exact List.not_mem_nil)

/-- The row axis is collapsed: no offset coordinate. -/
private theorem gather_off0 (j : (⟨2, ![E, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

/-- The offset coordinate on the column axis is the result's column. -/
private theorem gather_off1 (j : (⟨2, ![E, D]⟩ : Shape).Idx) : d.offCoord j 1 = (j 1).val := by
  obtain ⟨od, cd, ob, sb, sm, iv, ss, wf⟩ := d
  simp only at h1 h2 h3 h4 h5 h6 h7
  subst h1 h2 h3 h4 h5 h6 h7
  rfl

end Gather

/-- Gathering E rows out of an N x D matrix: row e is the operand's row n when word e, read signed, is n. -/
theorem gather_rows {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (n : Fin N) (hn : (idx (ix2 e 0)).toInt = (n.val : Int)) :
    Host.gather d x idx (ix2 e q) = x (ix2 n q) := by
  -- row axis: the clamped start is n (n is a row of the operand), nothing else is added
  have f0 : d.start (ix2 e q) idx 0 + d.batchCoord (ix2 e q) 0 + d.offCoord (ix2 e q) 0 = n.val := by
    rw [gather_start0 d h1 h2 h3 h4 h5 h6 h7, gather_batch d h1 h2 h3 h4 h5 h6 h7, gather_off0 d h1 h2 h3 h4 h5 h6 h7]
    show min (idx (ix2 e 0)).toInt.toNat (N - 1) + 0 + 0 = n.val
    rw [hn, Int.toNat_natCast]
    have := n.isLt
    omega
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

/-- Gathering E rows out of an N x D matrix, for any word: row e is the operand's row named by word e read signed
    and clamped into the operand, `min (max w 0) (N - 1)`. -/
theorem gather_rows_clamp {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (hN : 0 < N) :
    Host.gather d x idx (ix2 e q) = x (ix2 ⟨min (idx (ix2 e 0)).toInt.toNat (N - 1), by omega⟩ q) := by
  -- row axis: the clamped start, nothing else is added
  have f0 : d.start (ix2 e q) idx 0 + d.batchCoord (ix2 e q) 0 + d.offCoord (ix2 e q) 0
      = min (idx (ix2 e 0)).toInt.toNat (N - 1) := by
    rw [gather_start0 d h1 h2 h3 h4 h5 h6 h7, gather_batch d h1 h2 h3 h4 h5 h6 h7, gather_off0 d h1 h2 h3 h4 h5 h6 h7]
    rfl
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

end Cert.Sage.IndexRead

end
-- ==== Proof.RefValue.lean ====
/-
  The reference's result, read at an entry.

  jnp.take at the positions 0 … 8191 of a table with 8192 rows is the table itself: position s's word is s, which is
  not negative (no wrap), lies in [0, 8191] (the validity mask is all ones, so the select keeps the gathered row), and
  names row s of the table. The rest of @main is the layer normalisation of the rows of  table[s, ·] + x[b, s, ·]:
  at (b, s, h) it is the row normalisation `RowNorm.viaSqrt` of that row with gamma[h] and beta[h]; the host sums start
  from the zero pattern, which denotes 0.
-/
import proofs.«126532_g18691697672695_cont_sun_m_1329_2_alg».proof.Proof.RefRun
import proofs.«126532_g18691697672695_cont_sun_m_1329_2_alg».proof.Proof.RowNorm
import proofs.«126532_g18691697672695_cont_sun_m_1329_2_alg».proof.Proof.LibIndexRead
import Idealize.ShloMosaic.Lib.ValueIdx
import Idealize.ShloMosaic.Lib.Pipeline.Value
import Idealize.ShloMosaic.Lib.StableHlo.Predicate
import Idealize.ShloMosaic.Lib.ReduceAll
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx
open Idealize.ShloMosaic.StableHlo.Predicate Cert.RowNorm

/-! ## jnp.take at the positions is the table -/

/-- Position s's word is s: it is not negative, so it is not moved. -/
theorem takeWords_apply (s : Fin 8192) : takeWords (ix2 s 0) = BitVec.ofNat 32 s.val := by
  have hs := s.isLt
  have hneg : ¬ IntOp.cmpi .slt (BitVec.ofNat 32 s.val) 0#32 = 1#1 := by
    rw [slt_iff_toNat (by rw [BitVec.toNat_ofNat]; omega) (by decide)]
    exact Nat.not_lt_zero _
  unfold takeWords
  refine (broadcastInDim_apply _ _ _ (ix2 s 0) (ix1 s) fun a => ?_).trans ?_
  · match a with
    | ⟨0, _⟩ => rfl
  · show Scalar.select (IntOp.cmpi .slt (BitVec.ofNat 32 s.val) 0#32) (IntOp.addi (BitVec.ofNat 32 s.val) 8192#32)
      (BitVec.ofNat 32 s.val) = _
    rw [eq_zero_of_ne_one hneg, select_zero]

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l fun n hn => h n (List.mem_cons_of_mem _ hn)

/-- Every position is valid: its word lies in [0, 8191]. -/
theorem takeValid_apply (s : Fin 8192) : takeValid (ix1 s) = 1#1 := by
  unfold takeValid
  dsimp only
  rw [Host.reduce_eq_foldl]
  refine foldl_andi_one _ _ fun i _ => ?_
  obtain ⟨s', rfl⟩ : ∃ s' : Fin 8192, i = ix2 s' (0 : Fin 1) :=
    ⟨i 0, (eq_ix2 i).trans (congrArg (ix2 (i 0)) (Fin.ext (by have h1 : (i 1).val < 1 := (i 1).isLt; show (i 1).val = 0; omega)))⟩
  have hs := s'.isLt
  have ht : (BitVec.ofNat 32 s'.val).toNat = s'.val := by rw [BitVec.toNat_ofNat]; omega
  show IntOp.andi (IntOp.cmpi .sge (takeWords (ix2 s' 0)) 0#32) (IntOp.cmpi .sle (takeWords (ix2 s' 0)) 8191#32) = 1#1
  rw [takeWords_apply, IntOp.andi_eq_one]
  refine ⟨(sge_iff_toNat (by omega) (by decide)).mpr (Nat.zero_le _), (sle_iff_toNat (by omega) (by decide)).mpr ?_⟩
  rw [ht]
  show s'.val ≤ 8191
  omega

/-- jnp.take of the table at the positions, at (s, q), is the table's entry (s, q). -/
theorem takeOut_apply {F : FTy → Type} [FloatOps F] (table : Vec F S8192x768 .f32) (s : Fin 8192) (q : Fin 768) :
    takeOut table (ix2 s q) = table (ix2 s q) := by
  have hv : broadcastInDim S8192x768 ![0] bcast_S8192_S8192x768_0 takeValid (ix2 s q) = 1#1 :=
    (broadcastInDim_apply _ _ takeValid (ix2 s q) (ix1 s) fun a => by match a with | ⟨0, _⟩ => rfl).trans
      (takeValid_apply s)
  unfold takeOut
  rw [select_apply, hv, select_one]
  exact Cert.Sage.IndexRead.gather_rows _ rfl rfl rfl rfl rfl rfl rfl table takeWords s q s
    (by rw [takeWords_apply]; exact toInt_ofNat_small _ (by have := s.isLt; omega))

/-! ## Broadcasts and the host sum, read at an entry -/

/-- A [4, 8192] array kept as [4, 8192, 1] reads, at (b, s, 0), its entry (b, s). -/
theorem keep_apply {α : Type} (dims : Fin S4x8192.rank → Fin S4x8192x1.rank) (hb : S4x8192.BroadcastsInDim S4x8192x1 dims)
    (v : S4x8192.Idx → α) (b : Fin 4) (s : Fin 8192) (hd : dims = ![0, 1]) :
    broadcastInDim S4x8192x1 dims hb v (ix3 b s (0 : Fin 1)) = v (ix2 b s) := by
  subst hd
  refine broadcastInDim_apply _ _ v (ix3 b s 0) (ix2 b s) fun a => ?_
  match a with
  | ⟨0, _⟩ => rfl
  | ⟨1, _⟩ => rfl

/-- A [4, 8192, 1] array broadcast along the last axis reads, at (b, s, h), its entry (b, s, 0). -/
theorem over_apply {α : Type} (dims : Fin S4x8192x1.rank → Fin S4x8192x768.rank)
    (hb : S4x8192x1.BroadcastsInDim S4x8192x768 dims) (v : S4x8192x1.Idx → α) (b : Fin 4) (s : Fin 8192) (h : Fin 768)
    (hd : dims = ![0, 1, 2]) :
    broadcastInDim S4x8192x768 dims hb v (ix3 b s h) = v (ix3 b s (0 : Fin 1)) := by
  subst hd
  refine broadcastInDim_apply _ _ v (ix3 b s h) (ix3 b s 0) fun a => ?_
  match a with
  | ⟨0, _⟩ => rfl
  | ⟨1, _⟩ => rfl
  | ⟨2, _⟩ => rfl

/-- A scalar broadcast to [4, 8192, 1] reads the scalar everywhere. -/
theorem scalar_apply {α : Type} (dims : Fin S_.rank → Fin S4x8192x1.rank) (hb : S_.BroadcastsInDim S4x8192x1 dims)
    (v : S_.Idx → α) (i : S4x8192x1.Idx) : broadcastInDim S4x8192x1 dims hb v i = v ix0 :=
  broadcastInDim_apply _ _ v i ix0 fun a => a.elim0

/-- A [768] vector broadcast over batches and positions reads, at (b, s, h), its entry h. -/
theorem vec_apply {α : Type} (dims : Fin S1x1x768.rank → Fin S4x8192x768.rank)
    (hb : S1x1x768.BroadcastsInDim S4x8192x768 dims) (dims' : Fin S768.rank → Fin S1x1x768.rank)
    (hb' : S768.BroadcastsInDim S1x1x768 dims') (v : S768.Idx → α) (b : Fin 4) (s : Fin 8192) (h : Fin 768)
    (hd : dims = ![0, 1, 2]) (hd' : dims' = ![2]) :
    broadcastInDim S4x8192x768 dims hb (broadcastInDim S1x1x768 dims' hb' v) (ix3 b s h) = v (ix1 h) := by
  subst hd hd'
  refine (broadcastInDim_apply _ _ _ (ix3 b s h) (ix3 (0 : Fin 1) (0 : Fin 1) h) fun a => ?_).trans
    (broadcastInDim_apply _ _ v (ix3 (0 : Fin 1) (0 : Fin 1) h) (ix1 h) fun a => ?_)
  · match a with
    | ⟨0, _⟩ => rfl
    | ⟨1, _⟩ => rfl
    | ⟨2, _⟩ => rfl
  · match a with
    | ⟨0, _⟩ => rfl

/-- A [8192, 768] table broadcast over batches reads, at (b, s, k), its entry (s, k). -/
theorem table_apply {α : Type} (dims : Fin S1x8192x768.rank → Fin S4x8192x768.rank)
    (hb : S1x8192x768.BroadcastsInDim S4x8192x768 dims) (dims' : Fin S8192x768.rank → Fin S1x8192x768.rank)
    (hb' : S8192x768.BroadcastsInDim S1x8192x768 dims') (v : S8192x768.Idx → α) (b : Fin 4) (s : Fin 8192) (k : Fin 768)
    (hd : dims = ![0, 1, 2]) (hd' : dims' = ![1, 2]) :
    broadcastInDim S4x8192x768 dims hb (broadcastInDim S1x8192x768 dims' hb' v) (ix3 b s k) = v (ix2 s k) := by
  subst hd hd'
  refine (broadcastInDim_apply _ _ _ (ix3 b s k) (ix3 (0 : Fin 1) s k) fun a => ?_).trans
    (broadcastInDim_apply _ _ v (ix3 (0 : Fin 1) s k) (ix2 s k) fun a => ?_)
  · match a with
    | ⟨0, _⟩ => rfl
    | ⟨1, _⟩ => rfl
    | ⟨2, _⟩ => rfl
  · match a with
    | ⟨0, _⟩ => rfl
    | ⟨1, _⟩ => rfl

/-- The host's sum over the last axis, at (b, s): the initial value plus the sum of the row's 768 entries. -/
theorem hostRowSum (e : FVec Ideal S4x8192x768 .f32) (init : S_.Idx → EReal) (b : Fin 4) (s : Fin 8192) :
    Host.reduceAdd (F := Ideal) e init reducesTo_S4x8192x768_S4x8192_d2 h_S_ (ix2 b s)
      = init ix0 + ∑ k : Fin 768, e (ix3 b s k) := by
  have hr : S4x8192x768.Reduces [2] S4x8192 := by decide
  show Ideal.hostReduceAdd reducesTo_S4x8192x768_S4x8192_d2 e (init (Shape.Idx.first h_S_)) (ix2 b s) = _
  refine (Ideal.hostReduceAdd_single _ hr e _ (ix2 b s)).trans ?_
  refine congrArg₂ (· + ·) (congrArg init (funext fun a => a.elim0)) (Finset.sum_congr rfl fun k _ => congrArg e ?_)
  funext a
  apply Fin.ext
  match a with
  | ⟨0, _⟩ => rfl
  | ⟨1, _⟩ => rfl
  | ⟨2, _⟩ => rfl

theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

/-! ## The result at an entry -/

/-- @main's normalisation at (b, s, h) is the row normalisation, through the square root, of row (b, s). -/
theorem normOut_apply (e : Vec Ideal S4x8192x768 .f32) (gamma beta : Vec Ideal S768 .f32) (b : Fin 4) (s : Fin 8192)
    (h : Fin 768) :
    normOut (F := Ideal) e gamma beta (ix3 b s h)
      = viaSqrt (Ideal.ofBits .f32 0x44400000#32) (Ideal.ofBits .f32 0x2B8CBCCC#32) (fun k : Fin 768 => e (ix3 b s k))
          (gamma (ix1 h)) (beta (ix1 h)) h := by
  unfold normOut
  simp (disch := exact rfl) only [addf_apply, mulf_apply, subf_apply, hostDivf_apply, hostSqrt_apply, keep_apply, over_apply,
    scalar_apply, vec_apply, hostRowSum, constant_apply, Ideal.ofBits_zero_f32, zero_add]
  rfl

/-- @main's result at (b, s, h): the row normalisation of  k ↦ table[s, k] + x[b, s, k]  with gamma[h], beta[h]. -/
theorem refOut_apply (x : Vec Ideal S4x8192x768 .f32) (table : Vec Ideal S8192x768 .f32) (gamma beta : Vec Ideal S768 .f32)
    (b : Fin 4) (s : Fin 8192) (h : Fin 768) :
    refOut (F := Ideal) x table gamma beta (ix3 b s h)
      = viaSqrt (Ideal.ofBits .f32 0x44400000#32) (Ideal.ofBits .f32 0x2B8CBCCC#32)
          (fun k : Fin 768 => table (ix2 s k) + x (ix3 b s k)) (gamma (ix1 h)) (beta (ix1 h)) h := by
  unfold refOut
  rw [normOut_apply]
  refine congrArg (fun e => viaSqrt _ _ e (gamma (ix1 h)) (beta (ix1 h)) h) (funext fun k => ?_)
  rw [addf_apply, table_apply _ _ _ _ _ b s k rfl rfl, takeOut_apply]

end Cert.ReferenceIdeal.RefValue

end
-- ==== Proof.Bridge.lean ====
/-
  The two results are one function of the arguments.

  At (b, s, h) the kernel's result is the row normalisation, through the reciprocal square root, of the row
  k ↦ x[b, s, k] + pos[s, k]; the reference's is the row normalisation, through a quotient by the square root, of
  k ↦ pos[s, k] + x[b, s, k], both with the count 768, the same ε, gamma[h] and beta[h]. Addition of extended reals
  commutes, so the rows are one row; when x and pos hold real numbers the row is real, 768 and ε are positive reals,
  and the two spellings agree (`RowNorm.law`).
-/
import proofs.«126532_g18691697672695_cont_sun_m_1329_2_alg».proof.Proof.KernelValue
import proofs.«126532_g18691697672695_cont_sun_m_1329_2_alg».proof.Proof.RefValue
import proofs.«126532_g18691697672695_cont_sun_m_1329_2_alg».proof.Proof.RowNorm

noncomputable section

namespace Cert.Bridge

open Idealize.ShloMosaic Idealize.ShloMosaic.ValueIdx Cert.RowNorm

/-- On real inputs the kernel's result is the reference's. -/
theorem kOut_eq_refOut (x : Vec Ideal Cert.KernelIdeal.S4x8192x768 .f32) (pos : Vec Ideal Cert.KernelIdeal.S8192x768 .f32)
    (g b : Vec Ideal Cert.KernelIdeal.S768 .f32) (hx : ∀ i, ∃ r : ℝ, x i = (r : EReal))
    (hp : ∀ i, ∃ r : ℝ, pos i = (r : EReal)) :
    Cert.KernelIdeal.Out.kOut x pos g b = Cert.ReferenceIdeal.RefRun.refOut (F := Ideal) x pos g b := by
  funext i
  obtain ⟨bb, s, h, rfl⟩ : ∃ (bb : Fin 4) (s : Fin 8192) (h : Fin 768), i = ix3 bb s h := ⟨i 0, i 1, i 2, eq_ix3 i⟩
  refine (Cert.KernelIdeal.Out.kOut_apply x pos g b bb s h).trans
    (Eq.trans ?_ (Cert.ReferenceIdeal.RefValue.refOut_apply x pos g b bb s h).symm)
  obtain ⟨εr, hεr, hε⟩ := eps_pos
  have hrow : (fun k : Fin 768 => x (ix3 bb s k) + pos (ix2 s k)) = fun k : Fin 768 => pos (ix2 s k) + x (ix3 bb s k) :=
    funext fun k => add_comm _ _
  rw [hrow]
  refine law c768 (by norm_num) hε hεr _ (fun k => ?_) _ _ h
  obtain ⟨a, ha⟩ := hx (ix3 bb s k)
  obtain ⟨a', ha'⟩ := hp (ix2 s k)
  exact ⟨a' + a, by rw [ha, ha', EReal.coe_add]⟩

end Cert.Bridge

end
-- ==== Proof.lean ====
/-
  Layer normalisation of x + position embeddings, against its jnp reference, over the extended reals.

  The kernel runs one region over the rows of x re-laid to [32768, 768]: each row, summed with the position table's row
  (the row index modulo 8192), is normalised — mean, variance, a product with rsqrt (variance + ε) — scaled by gamma and
  shifted by beta. The reference takes the table's rows through jnp.take at the positions 0 … 8191 (the table itself),
  adds it to every batch of x and normalises each row with a quotient by sqrt (variance + ε).

  The frames of the two kernel programs are the generated ones; the reference's frame is its run, written as the list
  of its operations (Proof/RefRun.lean). The ideal pass rewrote nothing, so `preserves` is trivial. For `algebraic`:
  the kernel's region leaves in its output array one whole-array function of the arrays it reads (the body's stored
  value at an entry, Proof/KernelRow.lean; the blocks and their cover, Proof/KernelValue.lean), the reference's result
  read at an entry is the same row normalisation spelt through sqrt (Proof/RefValue.lean), and under the precondition
  the inputs are real (Proof/Finite.lean), where the two spellings agree (Proof/RowNorm.lean, Proof/Bridge.lean).
-/
import proofs.«126532_g18691697672695_cont_sun_m_1329_2_alg».proof.Defs
import proofs.«126532_g18691697672695_cont_sun_m_1329_2_alg».proof.Proof.Gen.Kernel
import proofs.«126532_g18691697672695_cont_sun_m_1329_2_alg».proof.Proof.Gen.Kernel.Skeleton
import proofs.«126532_g18691697672695_cont_sun_m_1329_2_alg».proof.Proof.Gen.Kernel.Launch
import proofs.«126532_g18691697672695_cont_sun_m_1329_2_alg».proof.Proof.Gen.Kernel.Points
import proofs.«126532_g18691697672695_cont_sun_m_1329_2_alg».proof.Proof.Gen.Kernel.Frame
import proofs.«126532_g18691697672695_cont_sun_m_1329_2_alg».proof.Proof.Gen.KernelIdeal
import proofs.«126532_g18691697672695_cont_sun_m_1329_2_alg».proof.Proof.Gen.KernelIdeal.Skeleton
import proofs.«126532_g18691697672695_cont_sun_m_1329_2_alg».proof.Proof.Gen.KernelIdeal.Launch
import proofs.«126532_g18691697672695_cont_sun_m_1329_2_alg».proof.Proof.Gen.KernelIdeal.Points
import proofs.«126532_g18691697672695_cont_sun_m_1329_2_alg».proof.Proof.Gen.KernelIdeal.Frame
import proofs.«126532_g18691697672695_cont_sun_m_1329_2_alg».proof.Proof.Gen.ReferenceIdeal
import proofs.«126532_g18691697672695_cont_sun_m_1329_2_alg».proof.Proof.Gen.Pre_finite_inputs
import proofs.«126532_g18691697672695_cont_sun_m_1329_2_alg».proof.Proof.RefRun
import proofs.«126532_g18691697672695_cont_sun_m_1329_2_alg».proof.Proof.KernelValue
import proofs.«126532_g18691697672695_cont_sun_m_1329_2_alg».proof.Proof.Finite
import proofs.«126532_g18691697672695_cont_sun_m_1329_2_alg».proof.Proof.Bridge
import Idealize.ShloMosaic.Adequacy
import Idealize.ShloMosaic.Init

noncomputable section

namespace Cert.Proof

open Idealize.ShloMosaic Idealize.SL.Sem

/-- The reference's frame: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.RefRun.run (F := Ideal) m ρ)

/-- From memories agreeing on the arguments both programs end with the reference's function of the arguments: the
    kernel's result is that function where the inputs are real, which the precondition says. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.ReferenceIdeal.RefRun.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Out.run m ρ)
    obtain ⟨hx, hp⟩ := Cert.Finite.real_of_pre _ _ _ _ (hpre c)
    exact Cert.Bridge.kOut_eq_refOut _ _ _ _ hx hp
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
